-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S8388608 : Shape := ⟨1, ![8388608]⟩
abbrev S2097152 : Shape := ⟨1, ![2097152]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2097152 : S_.BroadcastsInDim S2097152 (![] : Fin 0 → Fin S2097152.rank)
  reducesTo_S2097152_S_d0 : S2097152.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : IVec S8388608 32) (main_arg2 : FVec F S2097152 .f32) (main_arg3 : FVec F S2097152 .f32) (main_arg4 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2097152 .f32 := Host.absf main_arg2
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_v9 : FVec F S2097152 .f32 := Host.absf main_arg3
  let main_cst_2 : FVec F S_ .f32 := constant S_ .f32 0x7F800000#32
  let main_v10 : FVec F S2097152 .f32 := broadcastInDim S2097152 ![] bcast_S_S2097152 main_cst_2
  let main_v11 : IVec S2097152 1 := cmpf .olt main_v9 main_v10
  let main_c_3 : IVec S_ 1 := constantI S_ 1 1#1
  let main_v12 : IVec S_ 1 := (fun x v => Host.reduce IntOp.andi x v reducesTo_S2097152_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S8388608 : Shape := ⟨1, ![8388608]⟩
abbrev S2097152 : Shape := ⟨1, ![2097152]⟩
abbrev S4096 : Shape := ⟨1, ![4096]⟩
abbrev S2097152x4 : Shape := ⟨2, ![2097152, 4]⟩
abbrev S_ : Shape := ⟨0, ![]⟩
abbrev S2097152x4x1 : Shape := ⟨3, ![2097152, 4, 1]⟩
abbrev S2097152x4x2 : Shape := ⟨3, ![2097152, 4, 2]⟩
abbrev S2097152x8 : Shape := ⟨2, ![2097152, 8]⟩
abbrev S2097152x1 : Shape := ⟨2, ![2097152, 1]⟩
abbrev S4096x4096 : Shape := ⟨2, ![4096, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 30
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S8388608, .i32⟩
  | .hbm, ⟨2, _⟩ => ⟨S2097152, .f32⟩
  | .hbm, ⟨3, _⟩ => ⟨S2097152, .f32⟩
  | .hbm, ⟨4, _⟩ => ⟨S4096, .f32⟩
  | .hbm, ⟨5, _⟩ => ⟨S2097152x4, .i32⟩
  | .hbm, ⟨6, _⟩ => ⟨S_, .i32⟩
  | .hbm, ⟨7, _⟩ => ⟨S2097152x4, .i32⟩
  | .hbm, ⟨8, _⟩ => ⟨S2097152x4, .i32⟩
  | .hbm, ⟨9, _⟩ => ⟨S_, .i32⟩
  | .hbm, ⟨10, _⟩ => ⟨S2097152x4, .i32⟩
  | .hbm, ⟨11, _⟩ => ⟨S2097152x4, .i32⟩
  | .hbm, ⟨12, _⟩ => ⟨S_, .i32⟩
  | .hbm, ⟨13, _⟩ => ⟨S2097152x4, .i32⟩
  | .hbm, ⟨14, _⟩ => ⟨S2097152x4, .i32⟩
  | .hbm, ⟨15, _⟩ => ⟨S2097152x4x1, .i32⟩
  | .hbm, ⟨16, _⟩ => ⟨S2097152x4x1, .i32⟩
  | .hbm, ⟨17, _⟩ => ⟨S2097152x4x2, .i32⟩
  | .hbm, ⟨18, _⟩ => ⟨S2097152x8, .i32⟩
  | .hbm, ⟨19, _⟩ => ⟨S2097152x8, .f32⟩
  | .hbm, ⟨20, _⟩ => ⟨S2097152x1, .f32⟩
  | .hbm, ⟨21, _⟩ => ⟨S2097152x8, .f32⟩
  | .hbm, ⟨22, _⟩ => ⟨S2097152x8, .f32⟩
  | .hbm, ⟨23, _⟩ => ⟨S2097152x1, .f32⟩
  | .hbm, ⟨24, _⟩ => ⟨S2097152x8, .f32⟩
  | .hbm, ⟨25, _⟩ => ⟨S2097152x8, .f32⟩
  | .hbm, ⟨26, _⟩ => ⟨S4096x4096, .f32⟩
  | .hbm, ⟨27, _⟩ => ⟨S4096x4096, .bf16⟩
  | .hbm, ⟨28, _⟩ => ⟨S1x4096, .f32⟩
  | .hbm, ⟨29, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8388608_S2097152x4 : S8388608.ShapeCasts S2097152x4
  bcast_S_S2097152x4 : S_.BroadcastsInDim S2097152x4 (![] : Fin 0 → Fin S2097152x4.rank)
  bcast_S2097152x4_S2097152x4x1_0_1 : S2097152x4.BroadcastsInDim S2097152x4x1 (![0, 1] : Fin 2 → Fin S2097152x4x1.rank)
  concatenates_S2097152x4x1_S2097152x4x1_S2097152x4x2_d2 : Shape.Concatenates [S2097152x4x1, S2097152x4x1] S2097152x4x2 2
  shapeCasts_S2097152x4x2_S2097152x8 : S2097152x4x2.ShapeCasts S2097152x8
  bcast_S2097152_S2097152x1_0 : S2097152.BroadcastsInDim S2097152x1 (![0] : Fin 1 → Fin S2097152x1.rank)
  bcast_S2097152x1_S2097152x8_0_1 : S2097152x1.BroadcastsInDim S2097152x8 (![0, 1] : Fin 2 → Fin S2097152x8.rank)
  shapeCasts_S2097152x8_S4096x4096 : S2097152x8.ShapeCasts S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x4096.size a
  hwx0_0 : ∀ i : grid0.Coords, EltTy.bits .f32 = 32 ∨ (Rect.block (s := S2048x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .f32 = 32 ∨ (Rect.block (s := S2048x4096) S1024x1024.size (cc0_transform_3 i) (hinb0_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S8388608 : Shape := ⟨1, ![8388608]⟩
abbrev S2097152 : Shape := ⟨1, ![2097152]⟩
abbrev S4096 : Shape := ⟨1, ![4096]⟩
abbrev S2097152x4 : Shape := ⟨2, ![2097152, 4]⟩
abbrev S_ : Shape := ⟨0, ![]⟩
abbrev S2097152x4x1 : Shape := ⟨3, ![2097152, 4, 1]⟩
abbrev S2097152x4x2 : Shape := ⟨3, ![2097152, 4, 2]⟩
abbrev S2097152x8 : Shape := ⟨2, ![2097152, 8]⟩
abbrev S2097152x1 : Shape := ⟨2, ![2097152, 1]⟩
abbrev S4096x4096 : Shape := ⟨2, ![4096, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8388608, .i32⟩
  | .hbm, ⟨2, _⟩ => ⟨S2097152, .f32⟩
  | .hbm, ⟨3, _⟩ => ⟨S2097152, .f32⟩
  | .hbm, ⟨4, _⟩ => ⟨S4096, .f32⟩
  | .hbm, ⟨5, _⟩ => ⟨S2097152x4, .i32⟩
  | .hbm, ⟨6, _⟩ => ⟨S_, .i32⟩
  | .hbm, ⟨7, _⟩ => ⟨S2097152x4, .i32⟩
  | .hbm, ⟨8, _⟩ => ⟨S2097152x4, .i32⟩
  | .hbm, ⟨9, _⟩ => ⟨S_, .i32⟩
  | .hbm, ⟨10, _⟩ => ⟨S2097152x4, .i32⟩
  | .hbm, ⟨11, _⟩ => ⟨S2097152x4, .i32⟩
  | .hbm, ⟨12, _⟩ => ⟨S_, .i32⟩
  | .hbm, ⟨13, _⟩ => ⟨S2097152x4, .i32⟩
  | .hbm, ⟨14, _⟩ => ⟨S2097152x4, .i32⟩
  | .hbm, ⟨15, _⟩ => ⟨S2097152x4x1, .i32⟩
  | .hbm, ⟨16, _⟩ => ⟨S2097152x4x1, .i32⟩
  | .hbm, ⟨17, _⟩ => ⟨S2097152x4x2, .i32⟩
  | .hbm, ⟨18, _⟩ => ⟨S2097152x8, .i32⟩
  | .hbm, ⟨19, _⟩ => ⟨S2097152x8, .f32⟩
  | .hbm, ⟨20, _⟩ => ⟨S2097152x1, .f32⟩
  | .hbm, ⟨21, _⟩ => ⟨S2097152x8, .f32⟩
  | .hbm, ⟨22, _⟩ => ⟨S2097152x8, .f32⟩
  | .hbm, ⟨23, _⟩ => ⟨S2097152x1, .f32⟩
  | .hbm, ⟨24, _⟩ => ⟨S2097152x8, .f32⟩
  | .hbm, ⟨25, _⟩ => ⟨S2097152x8, .f32⟩
  | .hbm, ⟨26, _⟩ => ⟨S4096x4096, .f32⟩
  | .hbm, ⟨27, _⟩ => ⟨S4096x4096, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S8388608_S2097152x4 : S8388608.ShapeCasts S2097152x4
  bcast_S_S2097152x4 : S_.BroadcastsInDim S2097152x4 (![] : Fin 0 → Fin S2097152x4.rank)
  bcast_S2097152x4_S2097152x4x1_0_1 : S2097152x4.BroadcastsInDim S2097152x4x1 (![0, 1] : Fin 2 → Fin S2097152x4x1.rank)
  concatenates_S2097152x4x1_S2097152x4x1_S2097152x4x2_d2 : Shape.Concatenates [S2097152x4x1, S2097152x4x1] S2097152x4x2 2
  shapeCasts_S2097152x4x2_S2097152x8 : S2097152x4x2.ShapeCasts S2097152x8
  bcast_S2097152_S2097152x1_0 : S2097152.BroadcastsInDim S2097152x1 (![0] : Fin 1 → Fin S2097152x1.rank)
  bcast_S2097152x1_S2097152x8_0_1 : S2097152x1.BroadcastsInDim S2097152x8 (![0, 1] : Fin 2 → Fin S2097152x8.rank)
  shapeCasts_S2097152x8_S4096x4096 : S2097152x8.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Payload.lean ====
/-
  The three values the kernel body stores, read at an index over the extended reals.
  The reset stores a block of zeros; the accumulation stores, at (p, q), what the scratch held there plus
  ∑ₖ x[p, k] · w[q, k] over the 2048 columns of the two input blocks (the weight block enters transposed,
  and the narrowing of the activations is the identity on the extended reals); the epilogue stores the
  accumulator plus the bias row broadcast down the block.
-/
import proofs.«411412_j24721831756574_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The block the reset stores is zero everywhere. -/
theorem reset_apply (j : S1024x1024.Idx) : k0_pay1 (F := Ideal) j = 0 := by
  unfold k0_pay1
  rw [shapeCast_self]
  exact Ideal.ofBits_zero_f32

/-! The operand indices of the block product: output (p, q) and column k read the activations at (p, k) and the
    transposed weights at (k, q). -/

theorem lhs_axis0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_axis1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhs_axis0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhs_axis1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The accumulation's value at (p, q): the old accumulator there plus the block product. -/
theorem accumulate_apply (xb : Vec Ideal S1024x2048 .f32) (wb : Vec Ideal S1024x2048 .bf16) (acc : Vec Ideal S1024x1024 .f32)
    (p q : Fin 1024) :
    k0_pay2 (F := Ideal) xb wb acc (ix2 p q) = acc (ix2 p q) + ∑ k : Fin 2048, xb (ix2 p k) * wb (ix2 q k) := by
  unfold k0_pay2
  dsimp only
  rw [shapeCast_self, shapeCast_self]
  show acc (ix2 p q) + _ = _
  simp only [matmul]
  rw [Ideal.matmul_constant_zero_apply, ← Equiv.sum_comp (contrEquiv1 dot_S1024x2048_S2048x1024_S1024x1024_1_0_0_1_n_n 2048 rfl rfl).symm]
  refine congrArg (acc (ix2 p q) + ·) (Finset.sum_congr rfl fun k _ => ?_)
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er, transpose_ix2_apply]
  rfl

/-- The epilogue's value at (p, q): the accumulator there plus the bias row's entry q. -/
theorem epilogue_apply (acc : Vec Ideal S1024x1024 .f32) (brow : Vec Ideal S1x1024 .f32) (p q : Fin 1024) :
    k0_pay3 (F := Ideal) acc brow (ix2 p q) = acc (ix2 p q) + brow (ix2 (0 : Fin 1) q) := by
  unfold k0_pay3
  rw [shapeCast_self]
  show acc (ix2 p q) + broadcastTo S1024x1024 brow broadcasts_S1x1024_S1024x1024 (ix2 p q) = _
  rw [broadcastTo_apply brow broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])]

end Cert.KernelIdeal.Payload

end
-- ==== Proof.Pieces.lean ====
/-
  What one run of the kernel body leaves behind, as values of what it loaded (any float instance).
  At a point with k = 0 the body clears the accumulator and then adds the block product into it: the
  accumulator ends at the accumulation's value over the zero block. At a point with k = 1 it adds the block
  product into what the point before left, and stores into the output block that sum plus the bias row.
-/
import proofs.«411412_j24721831756574_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- Every access of the body is at offset (0, 0) of a whole buffer. -/
theorem origin : (![0, 0] : Fin 2 → Nat) = fun _ => 0 := funext fun a => by fin_cases a <;> rfl

/-- k = 0: the accumulator after the body is the block product added to the cleared accumulator (the load between the
    two stores reads the zeros just stored). -/
theorem acc_first (c : Dev nD) (i : grid0.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .f32) (x1 : Vec F S1024x2048 .bf16) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin]
  simp only [View.readAt_eq_ld, harg3.read_unread, harg4.read_unread, View.ld_unit_zero (S := S1024x2048) origin, View.readCov_unit_zero (S := S1024x1024) _ origin]

/-- k = 1: the accumulator after the body is the block product added to what the point before left. -/
theorem acc_last (c : Dev nD) (i : grid0.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .f32) (x1 : Vec F S1024x2048 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread, View.ld_unit_zero (S := S1024x2048) origin, View.ld_unit_zero (S := S1024x1024) origin]

/-- k = 1: the output block is that accumulator plus the bias row (the epilogue reads back the accumulator just stored). -/
theorem out_last (c : Dev nD) (i : grid0.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .f32) (x1 : Vec F S1024x2048 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 x0 x1 xs0) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg5.read_unread, harg7.read_unread, View.ld_unit_zero (S := S1024x2048) origin, View.ld_unit_zero (S := S1024x1024) origin, View.ld_unit_zero (S := S1x1024) origin, View.readCov_unit_zero (S := S1024x1024) _ origin]

end Cert.KernelIdeal.Pieces

end
-- ==== Proof.Linear.lean ====
/-
  The linear layer both programs compute, as one function of three arrays over the extended reals:
  out[r, c] = (∑ₖ x[r, k] · w[c, k]) + b[c], the weight matrix indexed (output feature, input feature).
  The kernel reaches an entry in two halves of the contraction axis, the second added to the first and the
  first to a zero; over the extended reals addition is commutative and associative everywhere (no finiteness
  is needed), so the two half sums are the whole sum.
-/
import Idealize.ShloMosaic.PureOps.Ideal
import Idealize.ShloMosaic.Lib.ValueIdx

noncomputable section

namespace Cert.QLinear

open Idealize.ShloMosaic Idealize.ShloMosaic.ValueIdx
open scoped BigOperators

/-- The activations, the dequantized weight matrix and the bias. -/
abbrev SAct : Shape := ⟨2, ![2048, 4096]⟩
abbrev SWgt : Shape := ⟨2, ![4096, 4096]⟩
abbrev SBias : Shape := ⟨1, ![4096]⟩

/-- `out[r, c] = (∑ₖ x[r, k] · w[c, k]) + b[c]`. -/
def linear (x : SAct.Idx → EReal) (w : SWgt.Idx → EReal) (b : SBias.Idx → EReal) : SAct.Idx → EReal :=
  fun i => (∑ k : Fin 4096, x (ix2 (i 0) k) * w (ix2 (i 1) k)) + b (ix1 (i 1))

theorem linear_apply (x : SAct.Idx → EReal) (w : SWgt.Idx → EReal) (b : SBias.Idx → EReal) (r : Fin 2048) (c : Fin 4096) :
    linear x w b (ix2 r c) = (∑ k : Fin 4096, x (ix2 r k) * w (ix2 c k)) + b (ix1 c) := rfl

/-- Column `k` of the first half, and of the second half, of the contraction axis. -/
abbrev lo (k : Fin 2048) : Fin 4096 := ⟨k.val, by have := k.isLt; omega⟩
abbrev hi (k : Fin 2048) : Fin 4096 := ⟨2048 + k.val, by have := k.isLt; omega⟩

/-- A sum over the 4096 columns is the sum over the first 2048 plus the sum over the last 2048, in any commutative monoid. -/
theorem sum_halves {M : Type*} [AddCommMonoid M] (f : Fin 4096 → M) :
    ∑ k : Fin 4096, f k = (∑ k : Fin 2048, f (lo k)) + ∑ k : Fin 2048, f (hi k) := by
  have h := Fin.sum_univ_add (a := 2048) (b := 2048) (f := (f : Fin (2048 + 2048) → M))
  refine h.trans ?_
  congr 1

/-- An entry accumulated as the kernel does it — a zero, plus the products over the first half of the columns, plus the
    products over the second half, plus the bias — is the layer's entry. -/
theorem linear_of_halves (x : SAct.Idx → EReal) (w : SWgt.Idx → EReal) (b : SBias.Idx → EReal) (r : Fin 2048) (c : Fin 4096)
    (xa xb wa wb : Fin 2048 → EReal) (bb : EReal)
    (hxa : ∀ k, xa k = x (ix2 r (lo k))) (hxb : ∀ k, xb k = x (ix2 r (hi k)))
    (hwa : ∀ k, wa k = w (ix2 c (lo k))) (hwb : ∀ k, wb k = w (ix2 c (hi k))) (hb : bb = b (ix1 c)) :
    (((0 : EReal) + ∑ k : Fin 2048, xa k * wa k) + ∑ k : Fin 2048, xb k * wb k) + bb = linear x w b (ix2 r c) := by
  rw [linear_apply, sum_halves, zero_add, hb]
  simp only [hxa, hxb, hwa, hwb]

end Cert.QLinear

end
-- ==== Proof.HostSide.lean ====
/-
  What the host operations before the kernel leave in the two arrays the kernel's windows stage besides the
  activations: the weight matrix is the narrowing to bf16 of the dequantized weights — the same chain of
  operations the reference applies to the packed words, the scales and the offsets —, and the bias row is
  the bias reshaped to one row.
-/
import proofs.«411412_j24721831756574_1_alg».proof.Proof.Gen.KernelIdeal.Frame
import proofs.«411412_j24721831756574_1_alg».proof.Proof.Gen.ReferenceIdeal.Read
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.ValueIdx Idealize.ShloMosaic.StableHlo

variable (m : (ℓ : Loc nD τ sig) → Buf (Elt Ideal) ℓ)

set_option maxHeartbeats 2000000 in
/-- The weight array the kernel finds: the reference's dequantized weights of the same arguments, narrowed. -/
theorem weights_eq (c : Dev nD) :
    @Eq (FVec Ideal S4096x4096 .bf16) (V m c main_v19)
      (truncf (F := Ideal) .bf16 (Cert.ReferenceIdeal.Read.val_main_v18 (F := Ideal) (m ((c : Thread nD τ).loc main_arg1)) (m ((c : Thread nD τ).loc main_arg2)) (m ((c : Thread nD τ).loc main_arg3)) : FVec Ideal S4096x4096 .f32) bitsLt_bf16_f32) := by
  show StableHlo.after hostOps0 (fun b => m (c, b)) (Proc.devRef .tc main_v19) = _
  after_results
  rfl

/-- The bias row the kernel finds: the bias as a [1, 4096] array. -/
theorem biasrow_eq (c : Dev nD) :
    @Eq (FVec Ideal S1x4096 .f32) (V m c main_v20) (shapeCast S1x4096 (m ((c : Thread nD τ).loc main_arg4) : FVec Ideal S4096 .f32) shapeCasts_S4096_S1x4096) := by
  show StableHlo.after hostOps0 (fun b => m (c, b)) (Proc.devRef .tc main_v20) = _
  after_results
  rfl

/-- Its entry (0, j) is the bias's entry j. -/
theorem biasrow_apply (c : Dev nD) (j : Fin 4096) :
    (V m c main_v20 : FVec Ideal S1x4096 .f32) (ix2 (0 : Fin 1) j) = (m ((c : Thread nD τ).loc main_arg4) : FVec Ideal S4096 .f32) (ix1 j) :=
  (congrFun (biasrow_eq m c) (ix2 (0 : Fin 1) j)).trans
    (shapeCast_apply _ shapeCasts_S4096_S1x4096 (ix2 (0 : Fin 1) j) (ix1 j)
      (by rewrite [Shape.rowMajor_val_one, Shape.rowMajor_val_two]; show j.val = 0 * 4096 + j.val; omega))

end Cert.KernelIdeal.HostSide

end
-- ==== Proof.KernelValue.lean ====
/-
  The kernel's value at the extended reals. The grid is (i, j, k) ∈ 2 × 4 × 2 with k innermost; the output block
  (i, j) is written back once, after the point k = 1, and holds there
      ((0 + ∑_{k < 2048} x[1024 i + p, k] · w[1024 j + q, k]) + ∑_{k < 2048} x[1024 i + p, 2048 + k] · w[1024 j + q, 2048 + k]) + b[1024 j + q]
  at entry (p, q): the accumulator cleared and first filled at k = 0, added to at k = 1, the bias added in the epilogue.
  Reassociated, that is the layer's entry; the 8 written blocks tile the output; so the output array ends holding the
  linear layer of the activations, the dequantized weights and the bias.
-/
import proofs.«411412_j24721831756574_1_alg».proof.Proof.Gen.KernelIdeal.Value
import proofs.«411412_j24721831756574_1_alg».proof.Proof.Payload
import proofs.«411412_j24721831756574_1_alg».proof.Proof.Pieces
import proofs.«411412_j24721831756574_1_alg».proof.Proof.Linear
import proofs.«411412_j24721831756574_1_alg».proof.Proof.HostSide
import Idealize.ShloMosaic.Lib.Pipeline.Value
import Idealize.ShloMosaic.Lib.ValueIdx

noncomputable section

namespace Cert.KernelIdeal.QValue

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The three arrays the kernel's input windows stage, as the kernel finds them: the activations, the (narrowed) weight
    matrix the host operations computed, and the bias row; and each window's block at a grid point. -/
abbrev xarr (c : Dev nD) : Vec Ideal S2048x4096 .f32 := V m c main_arg0
abbrev warr (c : Dev nD) : Vec Ideal S4096x4096 .bf16 := V m c main_v19
abbrev brow (c : Dev nD) : Vec Ideal S1x4096 .f32 := V m c main_v20
abbrev xblk (c : Dev nD) (t : Fin cfg0.N) : Vec Ideal S1024x2048 .f32 := iblk m c 0 t
abbrev wblk (c : Dev nD) (t : Fin cfg0.N) : Vec Ideal S1024x2048 .bf16 := iblk m c 1 t
abbrev bblk (c : Dev nD) (t : Fin cfg0.N) : Vec Ideal S1x1024 .f32 := iblk m c 2 t

/-- A block entry is the array's entry at (block index × block size + offset) on each axis. -/
theorem xblk_apply (c : Dev nD) (t : Fin cfg0.N) (p : Fin 1024) (k : Fin 2048) (i : S2048x4096.Idx)
    (h0 : (i 0).val = win0_0.index t 0 * 1024 + p.val) (h1 : (i 1).val = win0_0.index t 1 * 2048 + k.val) :
    xblk m c t (ix2 p k) = xarr m c i := by
  show V m c main_arg0 (((cfg0.win 0).blk t).view.emb (ix2 p k)) = V m c main_arg0 i
  refine congrArg _ (funext fun a => Fin.ext ?_)
  match a with
  | ⟨0, _⟩ => show win0_0.index t (0 : Fin 2) * 1024 + 1 * p.val = (i 0).val; omega
  | ⟨1, _⟩ => show win0_0.index t (1 : Fin 2) * 2048 + 1 * k.val = (i 1).val; omega

theorem wblk_apply (c : Dev nD) (t : Fin cfg0.N) (q : Fin 1024) (k : Fin 2048) (i : S4096x4096.Idx)
    (h0 : (i 0).val = win0_1.index t 0 * 1024 + q.val) (h1 : (i 1).val = win0_1.index t 1 * 2048 + k.val) :
    wblk m c t (ix2 q k) = warr m c i := by
  show V m c main_v19 (((cfg0.win 1).blk t).view.emb (ix2 q k)) = V m c main_v19 i
  refine congrArg _ (funext fun a => Fin.ext ?_)
  match a with
  | ⟨0, _⟩ => show win0_1.index t (0 : Fin 2) * 1024 + 1 * q.val = (i 0).val; omega
  | ⟨1, _⟩ => show win0_1.index t (1 : Fin 2) * 2048 + 1 * k.val = (i 1).val; omega

theorem bblk_apply (c : Dev nD) (t : Fin cfg0.N) (q : Fin 1024) (i : S1x4096.Idx)
    (h1 : (i 1).val = win0_2.index t 1 * 1024 + q.val) :
    bblk m c t (ix2 (0 : Fin 1) q) = brow m c i := by
  show V m c main_v20 (((cfg0.win 2).blk t).view.emb (ix2 (0 : Fin 1) q)) = V m c main_v20 i
  refine congrArg _ (funext fun a => Fin.ext ?_)
  have hi0 : (i 0).val < 1 := (i 0).isLt
  match a with
  | ⟨0, _⟩ => show win0_2.index t (0 : Fin 2) * 1 + 1 * 0 = (i 0).val; have := (show win0_2.index t (0 : Fin 2) = 0 from rfl); omega
  | ⟨1, _⟩ => show win0_2.index t (1 : Fin 2) * 1024 + 1 * q.val = (i 1).val; omega

/-- The index maps over the grid (i, j, k) ∈ 2 × 4 × 2, point t = 8 i + 2 j + k: the activations' block is (i, k), the
    weights' (j, k), the bias row's (0, j), the output's (i, j). -/
theorem index_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The point before an odd point. -/
abbrev before (t : Fin cfg0.N) : Fin cfg0.N := ⟨t.val - 1, Nat.lt_of_le_of_lt (Nat.sub_le _ _) t.isLt⟩

/-- THE OUTPUT BLOCK at a point with k = 1, entry (p, q): the zero the point before cleared the accumulator to, plus the
    block product at the point before (k = 0), plus the block product at this point, plus the bias row's entry. -/
theorem out_apply (c : Dev nD) (t : Fin cfg0.N) (h0 : ¬t.val % 2 = 0) (h1 : t.val % 2 = 1) (p q : Fin 1024) :
    (outsAt0 m c t.val t.isLt).1 (ix2 p q)
      = (((0 : EReal) + ∑ k : Fin 2048, xblk m c (before t) (ix2 p k) * wblk m c (before t) (ix2 q k))
          + ∑ k : Fin 2048, xblk m c t (ix2 p k) * wblk m c t (ix2 q k)) + bblk m c t (ix2 (0 : Fin 1) q) := by
  have hN : t.val < 16 := lt_of_lt_of_eq t.isLt (show cfg0.N = 16 from N_0)
  have h0' : (before t).val % 2 = 0 := by show (t.val - 1) % 2 = 0; omega
  have h1' : ¬(before t).val % 2 = 1 := by show ¬(t.val - 1) % 2 = 1; omega
  rw [outsAt0_B m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).trans ?_
  refine (Payload.epilogue_apply _ _ p q).trans ?_
  refine congrArg (· + bblk m c t (ix2 (0 : Fin 1) q)) ?_
  refine (Payload.accumulate_apply _ _ _ p q).trans ?_
  refine congrArg (· + ∑ k : Fin 2048, xblk m c t (ix2 p k) * wblk m c t (ix2 q k)) ?_
  rw [show outsAt0 m c (t.val - 1) (Nat.lt_of_le_of_lt (Nat.sub_le _ _) t.isLt) = _ from outsAt0_A m c (before t) h0' h1']
  dsimp only
  refine (congrFun (Pieces.acc_first (F := Ideal) c (grid0.coords (before t)) (ms0_0 (before t)) (hs0_0 (before t)) (ms0_1 (before t)) (hs0_1 (before t)) (ms0_2 (before t)) (hs0_2 (before t)) (ms0_3 (before t)) (hs0_3 (before t)) scM0_0 (Memref.isWhole_whole _) ((hcond0_0 (before t)).mpr h0') (fun h => h1' ((hcond0_1 (before t)).mp h)) (xblk m c (before t)) (wblk m c (before t)) (bblk m c (before t))) (ix2 p q)).trans ?_
  refine (Payload.accumulate_apply _ _ _ p q).trans ?_
  rw [Payload.reset_apply]

/-- The function the output array ends at: the linear layer of the three staged arrays. -/
abbrev result (c : Dev nD) : Vec Ideal S2048x4096 .f32 :=
  Cert.QLinear.linear (xarr m c) (warr m c) (fun j => brow m c (ix2 (0 : Fin 1) (j 0)))

/-- What a point with k = 1 writes back is its block of the layer: the two half sums over the columns are the
    whole contraction (the first half lies in the k = 0 blocks, the second in the k = 1 blocks). -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have hN : t.val < 16 := lt_of_lt_of_eq t.isLt (show cfg0.N = 16 from N_0)
  rw [Value.flushed3]
  funext j
  obtain ⟨p, q, rfl⟩ : ∃ (p q : Fin 1024), j = ix2 p q := ⟨j 0, j 1, eq_ix2 j⟩
  show (outsAt0 m c t.val t.isLt).1 (ix2 p q) = result m c (((cfg0.win 3).blk t).view.emb (ix2 p q))
  rw [out_apply m c t h0 h1 p q]
  obtain ⟨e0, e1, e2, e3, e4, e5, e6⟩ := index_facts t
  obtain ⟨f0, f1, f2, f3, f4, f5, f6⟩ := index_facts (before t)
  have hbv : (before t).val = t.val - 1 := rfl
  have hp : p.val < 1024 := p.isLt
  have hq : q.val < 1024 := q.isLt
  have hr : t.val / 8 * 1024 + p.val < 2048 := by omega
  have hc : t.val / 2 % 4 * 1024 + q.val < 4096 := by omega
  have hemb : ((cfg0.win 3).blk t).view.emb (ix2 p q) = ix2 (⟨t.val / 8 * 1024 + p.val, hr⟩ : Fin 2048) (⟨t.val / 2 % 4 * 1024 + q.val, hc⟩ : Fin 4096) :=
    funext fun a => Fin.ext (by
      match a with
      | ⟨0, _⟩ => show win0_3.index t (0 : Fin 2) * 1024 + 1 * p.val = t.val / 8 * 1024 + p.val; omega
      | ⟨1, _⟩ => show win0_3.index t (1 : Fin 2) * 1024 + 1 * q.val = t.val / 2 % 4 * 1024 + q.val; omega)
  rw [hemb]
  refine Cert.QLinear.linear_of_halves (xarr m c) (warr m c) (fun j => brow m c (ix2 (0 : Fin 1) (j 0))) _ _ _ _ _ _ _
    (fun k => xblk_apply m c (before t) p k _ (show t.val / 8 * 1024 + p.val = _ by omega) (show k.val = _ by omega))
    (fun k => xblk_apply m c t p k _ (show t.val / 8 * 1024 + p.val = _ by omega) (show 2048 + k.val = _ by omega))
    (fun k => wblk_apply m c (before t) q k _ (show t.val / 2 % 4 * 1024 + q.val = _ by omega) (show k.val = _ by omega))
    (fun k => wblk_apply m c t q k _ (show t.val / 2 % 4 * 1024 + q.val = _ by omega) (show 2048 + k.val = _ by omega))
    (bblk_apply m c t q _ (show t.val / 2 % 4 * 1024 + q.val = _ by omega))

/-- An index is in a point's output block iff each coordinate is in the block's range. -/
theorem mem_block (t : Fin cfg0.N) (i : S2048x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v21).slice (win0_3.rect t)).set ↔ _
  rw [View.set_slice_whole, Rect.mem_set_unit]
  exact Iff.rfl

/-- Every index of the output lies in the block of the point (i, j, 1) with i, j its coordinates' quotients by 1024. -/
theorem covered (i : S2048x4096.Idx) :
    ∃ t : Fin cfg0.N, (cfg0.win 3).flush t = true ∧ i ∈ ((cfg0.win 3).blk t).view.set := by
  have hi0 : (i 0).val < 2048 := (i 0).isLt
  have hi1 : (i 1).val < 4096 := (i 1).isLt
  have hN : cfg0.N = 16 := N_0
  obtain ⟨t, ht⟩ : ∃ t : Fin cfg0.N, t.val = (i 0).val / 1024 * 8 + (i 1).val / 1024 * 2 + 1 := ⟨⟨_, by omega⟩, rfl⟩
  refine ⟨t, (flush0_3 t).mpr (by omega), ?_⟩
  rw [mem_block]
  obtain ⟨e0, e1, e2, e3, e4, e5, e6⟩ := index_facts t
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- So the output array ends holding the layer. -/
theorem final (c : Dev nD) : (dats m 0 c).arrAt 3 cfg0.N = result m c :=
  (dats m 0 c).arrAt_eq_of_cover 3 (result m c) (flushed_eq m c) covered

/-- The layer of the staged arrays is the layer of the arguments: the activations are as launched, the weight matrix is
    the reference's dequantized weights (narrowing is the identity on the extended reals), the bias row reads the bias. -/
theorem result_eq (c : Dev nD) :
    result m c = Cert.QLinear.linear (m ((c : Thread nD τ).loc main_arg0))
      (Cert.ReferenceIdeal.Read.val_main_v18 (F := Ideal) (m ((c : Thread nD τ).loc main_arg1)) (m ((c : Thread nD τ).loc main_arg2)) (m ((c : Thread nD τ).loc main_arg3)))
      (m ((c : Thread nD τ).loc main_arg4)) := by
  have hx : @Eq (Cert.QLinear.SAct.Idx → EReal) (xarr m c) (m ((c : Thread nD τ).loc main_arg0)) := V_main_arg0 m c
  have hw : @Eq (Cert.QLinear.SWgt.Idx → EReal) (warr m c)
      (Cert.ReferenceIdeal.Read.val_main_v18 (F := Ideal) (m ((c : Thread nD τ).loc main_arg1)) (m ((c : Thread nD τ).loc main_arg2)) (m ((c : Thread nD τ).loc main_arg3))) :=
    HostSide.weights_eq m c
  have hb : @Eq (Cert.QLinear.SBias.Idx → EReal) (fun j => brow m c (ix2 (0 : Fin 1) (j 0))) (m ((c : Thread nD τ).loc main_arg4)) :=
    funext fun j => (HostSide.biasrow_apply m c (j 0)).trans (congrArg (m ((c : Thread nD τ).loc main_arg4)) (eq_ix1 j).symm)
  exact congr (congr (congrArg Cert.QLinear.linear hx) hw) hb

/-- The run, read: the result array at the layer of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21) = Cert.QLinear.linear (m ((c : Thread nD τ).loc main_arg0))
        (Cert.ReferenceIdeal.Read.val_main_v18 (F := Ideal) (m ((c : Thread nD τ).loc main_arg1)) (m ((c : Thread nD τ).loc main_arg2)) (m ((c : Thread nD τ).loc main_arg3)))
        (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_eq m c)), (h c).2⟩)
    (Value.run_blocks m ρ)

end Cert.KernelIdeal.QValue

end
-- ==== Proof.RefLinear.lean ====
/-
  The reference at an index: x @ Wᵀ + bias is the linear layer of the activations, the dequantized weight
  matrix (the reference's own value of it, before the transpose) and the bias.
-/
import proofs.«411412_j24721831756574_1_alg».proof.Proof.Gen.ReferenceIdeal.Read
import proofs.«411412_j24721831756574_1_alg».proof.Proof.Linear
import Idealize.ShloMosaic.Lib.ValueIdx

noncomputable section

namespace Cert.ReferenceIdeal.QRef

open Cert.ReferenceIdeal Cert.ReferenceIdeal.Gen Cert.ReferenceIdeal.Read Idealize.ShloMosaic Idealize.ShloMosaic.ValueIdx
open scoped BigOperators

/-- The reference's result is the layer: the transpose turns the contraction over the rows of Wᵀ into one over the
    columns of W, and the two broadcasts of the bias read its entry at the output column. -/
theorem reference_eq (x0 : (⟨S2048x4096, .f32⟩ : BufTy).Contents (Elt Ideal)) (x1 : (⟨S8388608, .i32⟩ : BufTy).Contents (Elt Ideal))
    (x2 x3 : (⟨S2097152, .f32⟩ : BufTy).Contents (Elt Ideal)) (x4 : (⟨S4096, .f32⟩ : BufTy).Contents (Elt Ideal)) :
    val_main_v23 (F := Ideal) x0 x1 x2 x3 x4 = Cert.QLinear.linear x0 (val_main_v18 (F := Ideal) x1 x2 x3) x4 := by
  funext i
  obtain ⟨r, c, rfl⟩ : ∃ (r : Fin 2048) (c : Fin 4096), i = ix2 r c := ⟨i 0, i 1, eq_ix2 i⟩
  rw [val_main_v23_apply, val_main_v20_apply, val_main_v22_apply, val_main_v21_apply, Cert.QLinear.linear_apply]
  show (∑ k : Fin 4096, _) + _ = _
  congr 1
  · refine Finset.sum_congr rfl fun k _ => ?_
    rw [val_main_v19_apply]
    have e1 : lidx_main_v20 (ix2 r c) k = ix2 r k := funext fun a => Fin.ext (by
      match a with
      | ⟨0, _⟩ => rfl
      | ⟨1, _⟩ => rfl)
    have e2 : idx_main_v19 (ridx_main_v20 (ix2 r c) k) = ix2 c k := funext fun a => Fin.ext (by
      match a with
      | ⟨0, _⟩ => rfl
      | ⟨1, _⟩ => rfl)
    rw [e1, e2]
  · refine congrArg x4 (funext fun a => Fin.ext ?_)
    match a with
    | ⟨0, _⟩ => rfl

end Cert.ReferenceIdeal.QRef

end
-- ==== Proof.lean ====
/-
  A linear layer with int4-quantized weights: out = x · Wᵀ + bias, W dequantized group by group from packed
  nibbles, scales and offsets. Both programs dequantize W by the same chain of host operations; the kernel then
  narrows W to bf16 (the identity on the extended reals) and computes the product block by block on a grid
  (i, j, k) ∈ 2 × 4 × 2, accumulating the two halves of the contraction axis in a scratch accumulator that it clears
  at k = 0 and, at k = 1, adds the bias to and writes out; the reference transposes W and takes one whole
  dot product, then adds the broadcast bias.
  Over the extended reals every entry of both results is (∑ₖ x[r, k] · W[c, k]) + bias[c]: the kernel's
  ((0 + first half) + second half) + bias reassociates to it, and addition there is commutative and associative at
  the infinities too, so the precondition is never opened. The ideal pass rewrote nothing, so the kernel's
  idealization is the kernel's own text. The frames of the two kernel programs are the generated ones; the
  reference's frame is its run with the result dropped.
-/
import proofs.«411412_j24721831756574_1_alg».proof.Defs
import proofs.«411412_j24721831756574_1_alg».proof.Proof.Gen.Kernel
import proofs.«411412_j24721831756574_1_alg».proof.Proof.Gen.Kernel.Skeleton
import proofs.«411412_j24721831756574_1_alg».proof.Proof.Gen.Kernel.Launch
import proofs.«411412_j24721831756574_1_alg».proof.Proof.Gen.Kernel.Points
import proofs.«411412_j24721831756574_1_alg».proof.Proof.Gen.Kernel.Frame
import proofs.«411412_j24721831756574_1_alg».proof.Proof.Gen.KernelIdeal
import proofs.«411412_j24721831756574_1_alg».proof.Proof.Gen.KernelIdeal.Skeleton
import proofs.«411412_j24721831756574_1_alg».proof.Proof.Gen.KernelIdeal.Launch
import proofs.«411412_j24721831756574_1_alg».proof.Proof.Gen.KernelIdeal.Points
import proofs.«411412_j24721831756574_1_alg».proof.Proof.Gen.KernelIdeal.Frame
import proofs.«411412_j24721831756574_1_alg».proof.Proof.Gen.ReferenceIdeal
import proofs.«411412_j24721831756574_1_alg».proof.Proof.Gen.Pre_finite_inputs
import proofs.«411412_j24721831756574_1_alg».proof.Proof.Gen.KernelIdeal.Value
import proofs.«411412_j24721831756574_1_alg».proof.Proof.Gen.ReferenceIdeal.Run
import proofs.«411412_j24721831756574_1_alg».proof.Proof.Gen.ReferenceIdeal.Read
import proofs.«411412_j24721831756574_1_alg».proof.Proof.KernelValue
import proofs.«411412_j24721831756574_1_alg».proof.Proof.RefLinear
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the linear layer of the same arguments. -/
theorem algebraic : Cert.algebraic_KernelIdeal_ReferenceIdeal := by
  intro m ρ m' ρ' _ hagree
  refine ⟨_, Cert.KernelIdeal.QValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.QRef.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
